-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x4096x2048 : Shape := ⟨3, ![8, 4096, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8x1024x2048 .f32) (main_arg1 : FVec F S8x4096x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  main_v8
-- ==== Kernel.lean ====
abbrev S8x1024x2048 : Shape := ⟨3, ![8, 1024, 2048]⟩
abbrev S8x4096x2048 : Shape := ⟨3, ![8, 4096, 2048]⟩
abbrev S8x1024x4096 : Shape := ⟨3, ![8, 1024, 4096]⟩
abbrev S1x256x2048 : Shape := ⟨3, ![1, 256, 2048]⟩
abbrev S1x1024x2048 : Shape := ⟨3, ![1, 1024, 2048]⟩
abbrev S1x256x1024 : Shape := ⟨3, ![1, 256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x1024x2048, .f32⟩
  | .hbm, ⟨1, _⟩ => ⟨S8x4096x2048, .f32⟩
  | .hbm, ⟨2, _⟩ => ⟨S8x1024x4096, .f32⟩
  | .local _ .vmem, ⟨0, _⟩ => ⟨S1x256x2048, .f32⟩
  | .local _ .vmem, ⟨1, _⟩ => ⟨S1x256x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x256x1024, .f32⟩
  | .local _ .vmem, ⟨5, _⟩ => ⟨S1x256x1024, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S256x2048_S256 : S256x2048.Reduces [1] S256
  shapeCasts_S256_S256x1 : S256.ShapeCasts S256x1
  reduces_S1024x2048_S1024 : S1024x2048.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .f32 = 32 ∨ (Rect.block (s := S8x1024x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .f32 = 32 ∨ (Rect.block (s := S8x4096x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x1024x4096.size a
  hwx0_2 : ∀ i : grid0.Coords, EltTy.bits .f32 = 32 ∨ (Rect.block (s := S8x1024x4096) S1x256x1024.size (cc0_transform_2 i) (hinb0_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x4096x2048 : Shape := ⟨3, ![8, 4096, 2048]⟩
abbrev S_ : Shape := ⟨0, ![]⟩
abbrev S8x1024 : Shape := ⟨2, ![8, 1024]⟩
abbrev S8x4096 : Shape := ⟨2, ![8, 4096]⟩
abbrev S8x1024x4096 : Shape := ⟨3, ![8, 1024, 4096]⟩
abbrev S8x1024x1 : Shape := ⟨3, ![8, 1024, 1]⟩
abbrev S8x1x4096 : Shape := ⟨3, ![8, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x4096x2048, .f32⟩
  | .hbm, ⟨2, _⟩ => ⟨S8x1024x2048, .f32⟩
  | .hbm, ⟨3, _⟩ => ⟨S_, .f32⟩
  | .hbm, ⟨4, _⟩ => ⟨S8x1024, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x1024x4096, .f32⟩
  | .hbm, ⟨9, _⟩ => ⟨S8x1024x1, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S8x1024x4096, .f32⟩
  | .hbm, ⟨15, _⟩ => ⟨S8x1x4096, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S8x1024x4096, .f32⟩
  | .hbm, ⟨20, _⟩ => ⟨S8x1024x4096, .f32⟩
  | .hbm, ⟨21, _⟩ => ⟨S8x1024x4096, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8x1024x2048_S8x1024_d2 : S8x1024x2048.ReducesTo [2] S8x1024
  h_S_ : 0 < S_.numel
  reducesTo_S8x4096x2048_S8x4096_d2 : S8x4096x2048.ReducesTo [2] S8x4096
  bcast_S8x1024_S8x1024x1_0_1 : S8x1024.BroadcastsInDim S8x1024x1 (![0, 1] : Fin 2 → Fin S8x1024x1.rank)
  bcast_S_S8x1024x4096 : S_.BroadcastsInDim S8x1024x4096 (![] : Fin 0 → Fin S8x1024x4096.rank)
  bcast_S8x1024x1_S8x1024x4096_0_1_2 : S8x1024x1.BroadcastsInDim S8x1024x4096 (![0, 1, 2] : Fin 3 → Fin S8x1024x4096.rank)
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  dot_S8x1024x2048_S8x4096x2048_S8x1024x4096_2_2_1_1_0_0_wf : DotDims.WF S8x1024x2048 S8x4096x2048 S8x1024x4096 [2] [2] [1] [1] [0] [0]

variable [Facts₀]

def dot_S8x1024x2048_S8x4096x2048_S8x1024x4096_2_2_1_1_0_0 : DotDims S8x1024x2048 S8x4096x2048 S8x1024x4096 where
  lhsContracting := [2]
  rhsContracting := [2]
  lhsNonContracting := [1]
  rhsNonContracting := [1]
  lhsBatch := [0]
  rhsBatch := [0]
  wf := dot_S8x1024x2048_S8x4096x2048_S8x1024x4096_2_2_1_1_0_0_wf

class Facts : Prop extends Facts₀ where

variable [Facts]
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Tile.lean ====
/-
  One tile of the table of distances, read at an index.

  The body is handed 256 rows of `x` and 1024 centroids of one layer, both 2048 wide, and stores for row `p` and centroid `q`
      sqrt (max ((Σ_d x[p,d]² − 2 · Σ_d x[p,d] · c[q,d]) + Σ_d c[q,d]², ε)),
  the expansion ‖a − b‖² = ‖a‖² − 2 a·b + ‖b‖² floored at ε before the root. The rows' sums of squares are a lane reduction
  kept as a column and spread over the tile's columns; the centroids' are a lane reduction kept as a column, turned into a
  row and spread over the tile's rows; the mixed sums are one matrix product contracting the width of both operands into a
  zero accumulator. Narrowing the product's operands to bf16 changes nothing over the extended reals.
-/
import proofs.«179198_j83846351552792_1_alg».proof.Proof.Gen.KernelIdeal.Skeleton
import proofs.«179198_j83846351552792_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Lib.Keepdims

/-! ## A row's sum of squares -/

/-- Summing the squares of a matrix along its second axis gives, at row `p`, the sum over the lanes `d` of the entry
    `(p, d)` squared: the reduction's inserted index is `(p, d)`. -/
theorem sumSq_apply {a b : ℕ} (w : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ (mulf w w) 0x00000000#32 hR hφ hacc (ix1 p) = ∑ d : Fin b, w (ix2 p d) * w (ix2 p d) := by
  refine (Ideal.multiReduction_add_single (mulf w w) _ hR hφ hacc (ix1 p)).trans ?_
  refine Finset.sum_congr rfl fun d _ => ?_
  have e : hR.lift (ix1 p) d = ix2 p d := funext fun x => Fin.ext (by match x with | ⟨0, _⟩ => rfl | ⟨1, _⟩ => rfl)
  rw [e]
  rfl

/-- The rows' sums of squares, kept as a column and spread over the tile: at `(p, q)` the sum for row `p`, whatever `q`. -/
theorem rowSq_apply {a b n : ℕ} (w : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, n]⟩) (p : Fin a) (q : Fin n) :
    broadcastTo ⟨2, ![a, n]⟩ (shapeCast ⟨2, ![a, 1]⟩ (multiReduction .add [1] ⟨1, ![a]⟩ (mulf w w) 0x00000000#32 hR hφ hacc) hC) hB (ix2 p q)
      = ∑ d : Fin b, w (ix2 p d) * w (ix2 p d) :=
  (broadcastTo_a1_ab_apply _ hB p q).trans ((shapeCast_a_a1_apply _ hC p 0).trans (sumSq_apply w hR hφ hacc p))

/-- The centroids' sums of squares, kept as a column, turned into a row and spread over the tile: at `(p, q)` the sum for
    centroid `q`, whatever `p`. -/
theorem colSq_apply {a b n : ℕ} (w : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hT : (⟨2, ![a, 1]⟩ : Shape).Transposes [1, 0] ⟨2, ![1, a]⟩)
    (hB : (⟨2, ![1, a]⟩ : Shape).Broadcasts ⟨2, ![n, a]⟩) (p : Fin n) (q : Fin a) :
    broadcastTo ⟨2, ![n, a]⟩ (transpose ⟨2, ![1, a]⟩ [1, 0]
        (shapeCast ⟨2, ![a, 1]⟩ (multiReduction .add [1] ⟨1, ![a]⟩ (mulf w w) 0x00000000#32 hR hφ hacc) hC) hT) hB (ix2 p q)
      = ∑ d : Fin b, w (ix2 q d) * w (ix2 q d) :=
  (broadcastTo_1b_ab_apply _ hB p q).trans ((transpose_ix2_apply _ hT 0 q).trans
    ((shapeCast_a_a1_apply _ hC q 0).trans (sumSq_apply w hR hφ hacc q)))

/-! ## The mixed sums: the matrix product contracting the width of both operands -/

theorem lhs_row (i : S256x1024.Idx) (k : dot_S256x2048_S1024x2048_S256x1024_1_1_0_0_n_n.contr.Idx) :
    (dot_S256x2048_S1024x2048_S256x1024_1_1_0_0_n_n.lhsIdx i k 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs_lane (i : S256x1024.Idx) (k : dot_S256x2048_S1024x2048_S256x1024_1_1_0_0_n_n.contr.Idx) :
    (dot_S256x2048_S1024x2048_S256x1024_1_1_0_0_n_n.lhsIdx i k 1).val = (k ⟨0, by decide⟩).val :=
  dot_S256x2048_S1024x2048_S256x1024_1_1_0_0_n_n.lhsIdx_val_of_single rfl i k
theorem rhs_row (i : S256x1024.Idx) (k : dot_S256x2048_S1024x2048_S256x1024_1_1_0_0_n_n.contr.Idx) :
    (dot_S256x2048_S1024x2048_S256x1024_1_1_0_0_n_n.rhsIdx i k 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs_lane (i : S256x1024.Idx) (k : dot_S256x2048_S1024x2048_S256x1024_1_1_0_0_n_n.contr.Idx) :
    (dot_S256x2048_S1024x2048_S256x1024_1_1_0_0_n_n.rhsIdx i k 1).val = (k ⟨0, by decide⟩).val :=
  dot_S256x2048_S1024x2048_S256x1024_1_1_0_0_n_n.rhsIdx_val_of_single rfl i k

/-- The product of the rows with the centroids into a zero accumulator: at `(p, q)` the sum over the lanes `d` of row `p`
    at `d` times centroid `q` at `d`. -/
theorem cross_apply (l : FVec Ideal S256x2048 .bf16) (r : FVec Ideal S1024x2048 .bf16) (p : Fin 256) (q : Fin 1024) :
    matmul dot_S256x2048_S1024x2048_S256x1024_1_1_0_0_n_n none l r (constant (F := Ideal) S256x1024 .f32 0x00000000#32) (ix2 p q)
      = ∑ d : Fin 2048, l (ix2 p d) * r (ix2 q d) := by
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun x => Fin.ext (by
    match x with
    | ⟨0, _⟩ => exact lhs_row _ _
    | ⟨1, _⟩ => exact (lhs_lane _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun x => Fin.ext (by
    match x with
    | ⟨0, _⟩ => exact rhs_row _ _
    | ⟨1, _⟩ => exact (rhs_lane _ _).trans hk)
  rw [el, er]

/-! ## The tile -/

/-- What the body stores at row `p`, centroid `q` of its tile, from the two blocks it loaded. -/
theorem tile_apply (xb : Vec Ideal S1x256x2048 .f32) (cb : Vec Ideal S1x1024x2048 .f32) (u : Fin 1) (p : Fin 256) (q : Fin 1024) :
    k0_pay1 (F := Ideal) xb cb (ix3 u p q)
      = Ideal.sqrt (max (((∑ d : Fin 2048, xb (ix3 (0 : Fin 1) p d) * xb (ix3 (0 : Fin 1) p d))
            - Ideal.ofBits .f32 0x40000000#32 * ∑ d : Fin 2048, xb (ix3 (0 : Fin 1) p d) * cb (ix3 (0 : Fin 1) q d))
          + ∑ d : Fin 2048, cb (ix3 (0 : Fin 1) q d) * cb (ix3 (0 : Fin 1) q d)) (Ideal.ofBits .f32 0x2B8CBCCC#32)) := by
  unfold k0_pay1
  refine (shapeCast_ab_1ab_apply _ _ u p q).trans ?_
  have hx : ∀ d : Fin 2048, shapeCast S256x2048 xb shapeCasts_S1x256x2048_S256x2048 (ix2 p d) = xb (ix3 (0 : Fin 1) p d) :=
    fun d => shapeCast_1ab_ab_apply xb _ p d
  have hc : ∀ d : Fin 2048, shapeCast S1024x2048 cb shapeCasts_S1x1024x2048_S1024x2048 (ix2 q d) = cb (ix3 (0 : Fin 1) q d) :=
    fun d => shapeCast_1ab_ab_apply cb _ q d
  have hA := rowSq_apply (n := 1024) (shapeCast S256x2048 xb shapeCasts_S1x256x2048_S256x2048) reduces_S256x2048_S256 (.inl rfl) rfl
    shapeCasts_S256_S256x1 broadcasts_S256x1_S256x1024 p q
  have hC := colSq_apply (n := 256) (shapeCast S1024x2048 cb shapeCasts_S1x1024x2048_S1024x2048) reduces_S1024x2048_S1024 (.inl rfl) rfl
    shapeCasts_S1024_S1024x1 transposes_S1024x1_p1_0_S1x1024 broadcasts_S1x1024_S256x1024 p q
  have hM := cross_apply (truncf .bf16 (shapeCast S256x2048 xb shapeCasts_S1x256x2048_S256x2048) bitsLt_bf16_f32)
    (truncf .bf16 (shapeCast S1024x2048 cb shapeCasts_S1x1024x2048_S1024x2048) bitsLt_bf16_f32) p q
  simp only [hx, hc, truncf_apply] at hA hC hM
  exact congrArg (fun z => Ideal.sqrt (max z (Ideal.ofBits .f32 0x2B8CBCCC#32)))
    (congrArg₂ (· + ·) (congrArg₂ (· - ·) hA (congrArg (Ideal.ofBits .f32 0x40000000#32 * ·) hM)) hC)

end Cert.KernelIdeal.Tile

end
-- ==== Proof.Distance.lean ====
/-
  The table of Euclidean distances between rows and centroids, layer by layer, as one function of the two argument arrays.

  For layer `l`, row `n` of `x` and centroid `k`, with `a = x[l, n, ·]` and `b = c[l, k, ·]` (both 2048 long), the entry is
      sqrt (max ((Σ_d a_d² − 2 · Σ_d a_d · b_d) + Σ_d b_d², ε)),
  the squared distance expanded as ‖a‖² − 2 a·b + ‖b‖², floored at the small positive ε, then rooted. The factor 2 and the
  floor ε are kept as the binary32 words the two programs both spell; nothing here depends on their values.
-/
import Idealize.ShloMosaic.Lib.ValueIdx
import Idealize.ShloMosaic.PureOps.Ideal

noncomputable section

namespace Cert.Distance

open Idealize.ShloMosaic Idealize.ShloMosaic.ValueIdx

/-- The entry for a row `a` and a centroid `b` given lane by lane. -/
def entry (a b : Fin 2048 → EReal) : EReal :=
  Ideal.sqrt (max (((∑ d : Fin 2048, a d * a d) - Ideal.ofBits .f32 0x40000000#32 * ∑ d : Fin 2048, a d * b d)
    + ∑ d : Fin 2048, b d * b d) (Ideal.ofBits .f32 0x2B8CBCCC#32))

/-- The whole table: entry `(l, n, k)` is `entry` of row `(l, n)` of the first array and row `(l, k)` of the second. -/
def table (X : (⟨3, ![8, 1024, 2048]⟩ : Shape).Idx → EReal) (C : (⟨3, ![8, 4096, 2048]⟩ : Shape).Idx → EReal) :
    (⟨3, ![8, 1024, 4096]⟩ : Shape).Idx → EReal := fun i =>
  entry (fun d => X (ix3 (i 0) (i 1) d)) (fun d => C (ix3 (i 0) (i 2) d))

/-- An entry computed from a row and a centroid that are, lane by lane, the arrays' rows `(i 0, i 1)` and `(i 0, i 2)` is the
    table's entry at `i`. -/
theorem entry_eq_table (X : (⟨3, ![8, 1024, 2048]⟩ : Shape).Idx → EReal) (C : (⟨3, ![8, 4096, 2048]⟩ : Shape).Idx → EReal)
    (i : (⟨3, ![8, 1024, 4096]⟩ : Shape).Idx) (a b : Fin 2048 → EReal)
    (ha : ∀ d, a d = X (ix3 (i 0) (i 1) d)) (hb : ∀ d, b d = C (ix3 (i 0) (i 2) d)) :
    entry a b = table X C i := by
  have ea : a = fun d => X (ix3 (i 0) (i 1) d) := funext ha
  have eb : b = fun d => C (ix3 (i 0) (i 2) d) := funext hb
  rw [ea, eb]
  rfl

end Cert.Distance

end
-- ==== Proof.KernelTable.lean ====
/-
  The kernel's output array after its run is the table of distances.

  The grid has a point for every layer `l`, every block of 1024 centroids `ki` and every block of 256 rows `ni`. At a point the
  body is handed rows `[256·ni, 256·ni + 256)` of layer `l` of `x` and centroids `[1024·ki, 1024·ki + 1024)` of layer `l`, each
  at its full width, and writes the tile `(l, ni, ki)` of the output. What it writes at `(p, q)` of the tile depends only on
  row `256·ni + p` and centroid `1024·ki + q`, so it is the table's entry there; the tiles fill the output.
-/
import proofs.«179198_j83846351552792_1_alg».proof.Proof.Gen.KernelIdeal.Value
import proofs.«179198_j83846351552792_1_alg».proof.Proof.Tile
import proofs.«179198_j83846351552792_1_alg».proof.Proof.Distance

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The three index maps over the 128 grid points: the rows' block and the centroids' block sit in the output tile's layer,
    the rows' block is the tile's row block, the centroids' block is the tile's column block, both inputs are taken at
    their full width, and the tile's block indices stay in their ranges. -/
theorem maps : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 7 ∧ win0_2.index t (1 : Fin 3) ≤ 3 ∧ win0_2.index t (2 : Fin 3) ≤ 3 :=
  (by decide +kernel : ∀ t : Fin grid0.N, _)

/-- Every tile of the output is some point's. -/
theorem onto : ∀ (l : Fin 8) (r : Fin 4) (s : Fin 4), ∃ t : Fin cfg0.N, win0_2.index t = ![l.val, r.val, s.val] :=
  (by decide +kernel : ∀ (l : Fin 8) (r : Fin 4) (s : Fin 4), ∃ t : Fin grid0.N, win0_2.index t = ![l.val, r.val, s.val])

/-- What point `t` writes back is tile `t` of the table of distances of the argument arrays. -/
theorem flushed_eq (c : Dev nD) (t : Fin cfg0.N) :
    (dats m 0 c).flushed 2 t
      = ((cfg0.win 2).blk t).view.read (Elt Ideal) (Cert.Distance.table (V m c main_arg0) (V m c main_arg1)) := by
  rw [Value.flushed2]
  unfold out0_2
  rw [View.canon_unit_zero origin]
  simp only [View.ld_unit_zero (S := S1x256x2048) origin, View.ld_unit_zero (S := S1x1024x2048) origin]
  obtain ⟨e0, e1, e2, e3, e4, e5, -, -, -⟩ := maps t
  funext j
  obtain ⟨u, p, q, rfl⟩ : ∃ (u : Fin 1) (p : Fin 256) (q : Fin 1024), j = ix3 u p q := ⟨j 0, j 1, j 2, eq_ix3 j⟩
  have hu : u.val = 0 := by have := u.isLt; omega
  refine (Tile.tile_apply (iblk m c 0 t) (iblk m c 1 t) u p q).trans ?_
  refine Cert.Distance.entry_eq_table _ _ _ _ _ (fun d => ?_) (fun d => ?_)
  · show V m c main_arg0 (((cfg0.win 0).blk t).view.emb (ix3 (0 : Fin 1) p d)) = V m c main_arg0 _
    refine congrArg _ (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 256 + 1 * p.val = win0_2.index t (1 : Fin 3) * 256 + 1 * p.val; omega
    | ⟨2, _⟩ => show win0_0.index t (2 : Fin 3) * 2048 + 1 * d.val = d.val; omega
  · show V m c main_arg1 (((cfg0.win 1).blk t).view.emb (ix3 (0 : Fin 1) q d)) = V m c main_arg1 _
    refine congrArg _ (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * q.val = win0_2.index t (2 : Fin 3) * 1024 + 1 * q.val; omega
    | ⟨2, _⟩ => show win0_1.index t (2 : Fin 3) * 2048 + 1 * d.val = d.val; omega

/-- An index of the output is in point `t`'s tile iff each coordinate is in the tile's range on its axis. -/
theorem mem_tile (t : Fin cfg0.N) (i : S8x1024x4096.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v0).slice (win0_2.rect t)).set ↔ _
  rw [View.set_slice_whole, Rect.mem_set_unit]
  exact Iff.rfl

/-- Every index of the output lies in the tile of the point for its layer, its row's block and its centroid's block. -/
theorem cover (i : S8x1024x4096.Idx) : ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 4096 := (i 2).isLt
  obtain ⟨t, ht⟩ := onto ⟨(i 0).val, hi0⟩ ⟨(i 1).val / 256, by omega⟩ ⟨(i 2).val / 1024, by omega⟩
  have q0 : win0_2.index t (0 : Fin 3) = (i 0).val := congrFun ht 0
  have q1 : win0_2.index t (1 : Fin 3) = (i 1).val / 256 := congrFun ht 1
  have q2 : win0_2.index t (2 : Fin 3) = (i 2).val / 1024 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- The output array after the run is the table of distances of the argument arrays. -/
theorem final (c : Dev nD) : (dats m 0 c).arrAt 2 cfg0.N = Cert.Distance.table (V m c main_arg0) (V m c main_arg1) :=
  (dats m 0 c).arrAt_eq_of_cover 2 _ (fun t _ => flushed_eq m c t) cover

/-- The kernel's run: it ends with the output at the table of distances of the arguments, the arguments unchanged. -/
theorem run : θ_run defs (onTc (τ := τ) (main (F := Ideal))) ⟨m, fun _ => 0, ρ⟩ fun r => ∀ c : Dev nD,
      r.2.mem ((c : Thread nD τ).loc main_v0)
        = Cert.Distance.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceTable.lean ====
/-
  The reference computes the table of distances: its result, read one operation at a time, is at every index the entry of
  `Cert.Distance.table`. Its two sums of squares and its batched product are sums over the 2048 lanes of rows `(l, n)` and
  `(l, k)` of the arguments; the host's sums start from a zero word, which adds nothing.
-/
import proofs.«179198_j83846351552792_1_alg».proof.Proof.Gen.ReferenceIdeal.Read
import proofs.«179198_j83846351552792_1_alg».proof.Proof.Distance

noncomputable section

namespace Cert.ReferenceIdeal.RefValue

open Cert.ReferenceIdeal Cert.ReferenceIdeal.Gen Cert.ReferenceIdeal.Read Idealize.ShloMosaic Idealize.ShloMosaic.ValueIdx

/-- The reference's last stage is the table of distances of its two arguments. -/
theorem result_eq (x0 : (⟨S8x1024x2048, .f32⟩ : BufTy).Contents (Elt Ideal)) (x1 : (⟨S8x4096x2048, .f32⟩ : BufTy).Contents (Elt Ideal)) :
    val_main_v15 (F := Ideal) x0 x1 = Cert.Distance.table x0 x1 := by
  funext i
  have e1 : ∀ k : Fin 2048, idx_main_v1 (idx_main_v5 (idx_main_v8 i)) k = ix3 (i 0) (i 1) k := fun k =>
    funext fun a => Fin.ext (by match a with | ⟨0, _⟩ => rfl | ⟨1, _⟩ => rfl | ⟨2, _⟩ => rfl)
  have e3 : ∀ k : Fin 2048, idx_main_v3 (idx_main_v10 (idx_main_v11 i)) k = ix3 (i 0) (i 2) k := fun k =>
    funext fun a => Fin.ext (by match a with | ⟨0, _⟩ => rfl | ⟨1, _⟩ => rfl | ⟨2, _⟩ => rfl)
  have el : ∀ k : Fin 2048, lidx_main_v4 i k = ix3 (i 0) (i 1) k := fun k =>
    funext fun a => Fin.ext (by match a with | ⟨0, _⟩ => rfl | ⟨1, _⟩ => rfl | ⟨2, _⟩ => rfl)
  have er : ∀ k : Fin 2048, ridx_main_v4 i k = ix3 (i 0) (i 2) k := fun k =>
    funext fun a => Fin.ext (by match a with | ⟨0, _⟩ => rfl | ⟨1, _⟩ => rfl | ⟨2, _⟩ => rfl)
  rw [val_main_v15_apply, val_main_v14_apply, val_main_v12_apply, val_main_v9_apply, val_main_v8_apply, val_main_v5_apply,
    val_main_v1_apply, val_main_v7_apply, val_main_v6_apply, val_main_cst_1_apply, val_main_v4_apply, val_main_v11_apply,
    val_main_v10_apply, val_main_v3_apply, val_main_v13_apply, val_main_cst_2_apply, val_main_cst_apply, val_main_cst_0_apply]
  simp only [val_main_v0_apply, val_main_v2_apply, e1, e3, el, er, Ideal.ofBits_def, Ideal.ofBits_zero_f32, zero_add,
    Ideal.mulf_def, Ideal.addf_def, Ideal.subf_def, Ideal.maximumf_def, Ideal.hostUnary_sqrt_def]
  rfl

end Cert.ReferenceIdeal.RefValue

end
-- ==== Proof.lean ====
/-
  The kernel and its jnp reference compute the same table of Euclidean distances.

  Over the extended reals both programs produce, for layer `l`, row `n` and centroid `k`,
      sqrt (max ((Σ_d x[l,n,d]² − 2 · Σ_d x[l,n,d] · c[l,k,d]) + Σ_d c[l,k,d]², ε))
  (`Cert.Distance.table`): the kernel tile by tile over a grid of layers, centroid blocks and row blocks, each tile from a
  block of rows and a block of centroids at full width (Proof/Tile.lean for one tile, Proof/KernelTable.lean for the tiles
  filling the output); the reference by two sums of squares, one batched product and broadcasts over whole arrays
  (Proof/ReferenceTable.lean). The two agree term for term: the same factor 2, the same floor ε, the same order of the
  subtraction and the addition, and sums over the same 2048 lanes. No entry needs to be finite for that, so the
  precondition is not opened. The idealization rewrote nothing, so there is nothing to preserve.
-/
import proofs.«179198_j83846351552792_1_alg».proof.Defs
import proofs.«179198_j83846351552792_1_alg».proof.Proof.Gen.Kernel
import proofs.«179198_j83846351552792_1_alg».proof.Proof.Gen.Kernel.Skeleton
import proofs.«179198_j83846351552792_1_alg».proof.Proof.Gen.Kernel.Launch
import proofs.«179198_j83846351552792_1_alg».proof.Proof.Gen.Kernel.Points
import proofs.«179198_j83846351552792_1_alg».proof.Proof.Gen.Kernel.Frame
import proofs.«179198_j83846351552792_1_alg».proof.Proof.Gen.KernelIdeal
import proofs.«179198_j83846351552792_1_alg».proof.Proof.Gen.KernelIdeal.Skeleton
import proofs.«179198_j83846351552792_1_alg».proof.Proof.Gen.KernelIdeal.Launch
import proofs.«179198_j83846351552792_1_alg».proof.Proof.Gen.KernelIdeal.Points
import proofs.«179198_j83846351552792_1_alg».proof.Proof.Gen.KernelIdeal.Frame
import proofs.«179198_j83846351552792_1_alg».proof.Proof.Gen.ReferenceIdeal
import proofs.«179198_j83846351552792_1_alg».proof.Proof.Gen.Pre_finite_inputs
import proofs.«179198_j83846351552792_1_alg».proof.Proof.Gen.KernelIdeal.Value
import proofs.«179198_j83846351552792_1_alg».proof.Proof.Gen.ReferenceIdeal.Run
import proofs.«179198_j83846351552792_1_alg».proof.Proof.Gen.ReferenceIdeal.Read
import proofs.«179198_j83846351552792_1_alg».proof.Proof.KernelTable
import proofs.«179198_j83846351552792_1_alg».proof.Proof.ReferenceTable
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and the centroids, both programs end with the table of distances of those two arrays. -/
theorem algebraic : Cert.algebraic_KernelIdeal_ReferenceIdeal := by
  intro m ρ m' ρ' _ hagree
  refine ⟨fun c => Cert.Distance.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
